-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x4 : Shape := ⟨3, ![64, 100000, 4]⟩
abbrev S_ : Shape := ⟨0, ![]⟩

class Facts : Prop where
  bcast_S_S64x100000x4 : S_.BroadcastsInDim S64x100000x4 (![] : Fin 0 → Fin S64x100000x4.rank)
  reducesTo_S64x100000x4_S_d0_1_2 : S64x100000x4.ReducesTo [0, 1, 2] S_
  h_S_ : 0 < S_.numel

variable [Facts]

def fn {F : FTy → Type} [FloatOps F] (main_arg0 : FVec F S64x100000x4 .f32) (main_arg1 : FVec F S64x100000x4 .f32) : IVec S_ 1 :=
  let main_v0 : FVec F S64x100000x4 .f32 := Host.absf main_arg0
  let main_cst : FVec F S_ .f32 := constant S_ .f32 0x7F800000#32
  let main_v1 : FVec F S64x100000x4 .f32 := broadcastInDim S64x100000x4 ![] bcast_S_S64x100000x4 main_cst
  let main_v2 : IVec S64x100000x4 1 := cmpf .olt main_v0 main_v1
  let main_c : IVec S_ 1 := constantI S_ 1 1#1
  let main_v3 : IVec S_ 1 := (fun x v => Host.reduce IntOp.andi x v reducesTo_S64x100000x4_S_d0_1_2 h_S_) main_v2 main_c
  let main_v4 : FVec F S64x100000x4 .f32 := Host.absf main_arg1
  let main_cst_0 : FVec F S_ .f32 := constant S_ .f32 0x7F800000#32
  let main_v5 : FVec F S64x100000x4 .f32 := broadcastInDim S64x100000x4 ![] bcast_S_S64x100000x4 main_cst_0
  let main_v6 : IVec S64x100000x4 1 := cmpf .olt main_v4 main_v5
  let main_c_1 : IVec S_ 1 := constantI S_ 1 1#1
  let main_v7 : IVec S_ 1 := (fun x v => Host.reduce IntOp.andi x v reducesTo_S64x100000x4_S_d0_1_2 h_S_) main_v6 main_c_1
  let main_v8 : IVec S_ 1 := andi main_v3 main_v7
  main_v8
-- ==== Kernel.lean ====
abbrev S64x100000x4 : Shape := ⟨3, ![64, 100000, 4]⟩
abbrev S64x200x4 : Shape := ⟨3, ![64, 200, 4]⟩
abbrev S64x200x1 : Shape := ⟨3, ![64, 200, 1]⟩
abbrev S64x200 : Shape := ⟨2, ![64, 200]⟩

abbrev nBuf : Space → Nat
  | .hbm => 3
  | .vmem => 6
  | .smem => 0
  | _ => 0

abbrev bufTy : (tb : Table) → Fin (tcTables nBuf tb) → BufTy
  | .hbm, ⟨0, _⟩ => ⟨S64x100000x4, .f32⟩
  | .hbm, ⟨1, _⟩ => ⟨S64x100000x4, .f32⟩
  | .hbm, ⟨2, _⟩ => ⟨S64x100000x4, .f32⟩
  | .local _ .vmem, ⟨0, _⟩ => ⟨S64x200x4, .f32⟩
  | .local _ .vmem, ⟨1, _⟩ => ⟨S64x200x4, .f32⟩
  | .local _ .vmem, ⟨2, _⟩ => ⟨S64x200x4, .f32⟩
  | .local _ .vmem, ⟨3, _⟩ => ⟨S64x200x4, .f32⟩
  | .local _ .vmem, ⟨4, _⟩ => ⟨S64x200x4, .f32⟩
  | .local _ .vmem, ⟨5, _⟩ => ⟨S64x200x4, .f32⟩
  | _, _ => ⟨S64x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x200x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x200x4_S64x200x4_0_0_0 : ∀ a, (![0, 0, 0] : Fin 3 → Nat) a + S64x200x4.size a ≤ S64x200x4.size a
  h_S64x200x4 : 0 < S64x200x4.numel
  slices_S64x200x4_o0_0_0_S64x200x1 : S64x200x4.Slices ![0, 0, 0] S64x200x1
  shapeCasts_S64x200x1_S64x200 : S64x200x1.ShapeCasts S64x200
  slices_S64x200x4_o0_0_1_S64x200x1 : S64x200x4.Slices ![0, 0, 1] S64x200x1
  slices_S64x200x4_o0_0_2_S64x200x1 : S64x200x4.Slices ![0, 0, 2] S64x200x1
  slices_S64x200x4_o0_0_3_S64x200x1 : S64x200x4.Slices ![0, 0, 3] S64x200x1
  shapeCasts_S64x200_S64x200x1 : S64x200.ShapeCasts S64x200x1
  concatenates_S64x200x1_S64x200x1_S64x200x1_S64x200x1_S64x200x4_d2 : Shape.Concatenates [S64x200x1, S64x200x1, S64x200x1, S64x200x1] S64x200x4 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x4.size a ≤ S64x100000x4.size a
  hwx0_0 : ∀ i : grid0.Coords, EltTy.bits .f32 = 32 ∨ (Rect.block (s := S64x100000x4) S64x200x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200x4.size a ≤ S64x100000x4.size a
  hwx0_1 : ∀ i : grid0.Coords, EltTy.bits .f32 = 32 ∨ (Rect.block (s := S64x100000x4) S64x200x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x200x4.size a ≤ S64x100000x4.size a
  hwx0_2 : ∀ i : grid0.Coords, EltTy.bits .f32 = 32 ∨ (Rect.block (s := S64x100000x4) S64x200x4.size (cc0_transform_2 i) (hinb0_2 i)).WholeWords (EltTy.packing .f32)

variable [Facts₀]

abbrev win0_0 : Pipeline.Window sig grid0 :=
  Pipeline.Window.ofSpec (Memref.whole main_arg0) S64x200x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x200x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100000x4 : Shape := ⟨3, ![64, 100000, 4]⟩
abbrev S64x100000x1 : Shape := ⟨3, ![64, 100000, 1]⟩
abbrev S64x100000 : Shape := ⟨2, ![64, 100000]⟩

abbrev nBuf : Space → Nat
  | .hbm => 51
  | .vmem => 0
  | .smem => 0
  | _ => 0

abbrev bufTy : (tb : Table) → Fin (tcTables nBuf tb) → BufTy
  | .hbm, ⟨0, _⟩ => ⟨S64x100000x4, .f32⟩
  | .hbm, ⟨1, _⟩ => ⟨S64x100000x4, .f32⟩
  | .hbm, ⟨2, _⟩ => ⟨S64x100000x1, .f32⟩
  | .hbm, ⟨3, _⟩ => ⟨S64x100000, .f32⟩
  | .hbm, ⟨4, _⟩ => ⟨S64x100000x1, .f32⟩
  | .hbm, ⟨5, _⟩ => ⟨S64x100000, .f32⟩
  | .hbm, ⟨6, _⟩ => ⟨S64x100000x1, .f32⟩
  | .hbm, ⟨7, _⟩ => ⟨S64x100000, .f32⟩
  | .hbm, ⟨8, _⟩ => ⟨S64x100000x1, .f32⟩
  | .hbm, ⟨9, _⟩ => ⟨S64x100000, .f32⟩
  | .hbm, ⟨10, _⟩ => ⟨S64x100000x1, .f32⟩
  | .hbm, ⟨11, _⟩ => ⟨S64x100000, .f32⟩
  | .hbm, ⟨12, _⟩ => ⟨S64x100000x1, .f32⟩
  | .hbm, ⟨13, _⟩ => ⟨S64x100000, .f32⟩
  | .hbm, ⟨14, _⟩ => ⟨S64x100000x1, .f32⟩
  | .hbm, ⟨15, _⟩ => ⟨S64x100000, .f32⟩
  | .hbm, ⟨16, _⟩ => ⟨S64x100000x1, .f32⟩
  | .hbm, ⟨17, _⟩ => ⟨S64x100000, .f32⟩
  | .hbm, ⟨18, _⟩ => ⟨S64x100000, .f32⟩
  | .hbm, ⟨19, _⟩ => ⟨S64x100000, .f32⟩
  | .hbm, ⟨20, _⟩ => ⟨S64x100000, .f32⟩
  | .hbm, ⟨21, _⟩ => ⟨S64x100000, .f32⟩
  | .hbm, ⟨22, _⟩ => ⟨S64x100000, .f32⟩
  | .hbm, ⟨23, _⟩ => ⟨S64x100000, .f32⟩
  | .hbm, ⟨24, _⟩ => ⟨S64x100000, .f32⟩
  | .hbm, ⟨25, _⟩ => ⟨S64x100000, .f32⟩
  | .hbm, ⟨26, _⟩ => ⟨S64x100000, .f32⟩
  | .hbm, ⟨27, _⟩ => ⟨S64x100000, .f32⟩
  | .hbm, ⟨28, _⟩ => ⟨S64x100000, .f32⟩
  | .hbm, ⟨29, _⟩ => ⟨S64x100000, .f32⟩
  | .hbm, ⟨30, _⟩ => ⟨S64x100000, .f32⟩
  | .hbm, ⟨31, _⟩ => ⟨S64x100000, .f32⟩
  | .hbm, ⟨32, _⟩ => ⟨S64x100000, .f32⟩
  | .hbm, ⟨33, _⟩ => ⟨S64x100000, .f32⟩
  | .hbm, ⟨34, _⟩ => ⟨S64x100000, .f32⟩
  | .hbm, ⟨35, _⟩ => ⟨S64x100000, .f32⟩
  | .hbm, ⟨36, _⟩ => ⟨S64x100000, .f32⟩
  | .hbm, ⟨37, _⟩ => ⟨S64x100000, .f32⟩
  | .hbm, ⟨38, _⟩ => ⟨S64x100000, .f32⟩
  | .hbm, ⟨39, _⟩ => ⟨S64x100000, .f32⟩
  | .hbm, ⟨40, _⟩ => ⟨S64x100000, .f32⟩
  | .hbm, ⟨41, _⟩ => ⟨S64x100000, .f32⟩
  | .hbm, ⟨42, _⟩ => ⟨S64x100000, .f32⟩
  | .hbm, ⟨43, _⟩ => ⟨S64x100000, .f32⟩
  | .hbm, ⟨44, _⟩ => ⟨S64x100000, .f32⟩
  | .hbm, ⟨45, _⟩ => ⟨S64x100000, .f32⟩
  | .hbm, ⟨46, _⟩ => ⟨S64x100000x1, .f32⟩
  | .hbm, ⟨47, _⟩ => ⟨S64x100000x1, .f32⟩
  | .hbm, ⟨48, _⟩ => ⟨S64x100000x1, .f32⟩
  | .hbm, ⟨49, _⟩ => ⟨S64x100000x1, .f32⟩
  | .hbm, ⟨50, _⟩ => ⟨S64x100000x4, .f32⟩
  | _, _ => ⟨S64x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]

class Facts₀ : Prop where
  slices_S64x100000x4_S64x100000x1_0_0_0 : S64x100000x4.Slices ![0, 0, 0] S64x100000x1
  shapeCasts_S64x100000x1_S64x100000 : S64x100000x1.ShapeCasts S64x100000
  slices_S64x100000x4_S64x100000x1_0_0_1 : S64x100000x4.Slices ![0, 0, 1] S64x100000x1
  slices_S64x100000x4_S64x100000x1_0_0_2 : S64x100000x4.Slices ![0, 0, 2] S64x100000x1
  slices_S64x100000x4_S64x100000x1_0_0_3 : S64x100000x4.Slices ![0, 0, 3] S64x100000x1
  bcast_S64x100000_S64x100000x1_0_1 : S64x100000.BroadcastsInDim S64x100000x1 (![0, 1] : Fin 2 → Fin S64x100000x1.rank)
  concatenates_S64x100000x1_S64x100000x1_S64x100000x1_S64x100000x1_S64x100000x4_d2 : Shape.Concatenates [S64x100000x1, S64x100000x1, S64x100000x1, S64x100000x1] S64x100000x4 2

variable [Facts₀]

class Facts : Prop extends Facts₀ where

variable [Facts]
-- ==== Proof.LibLastAxis.lean ====
/-
  Layout operations on a rank-3 array whose LAST axis is short, read at an index given by coordinates.

  A value whose last axis holds the few components of one object (a quaternion's four, a colour's three) is taken
  apart and put together again by four operations: a unit slice of the last axis ("component o of every row"), the
  shape cast that drops the trailing unit axis left by that slice, the shape cast or the `broadcast_in_dim` that
  puts a trailing unit axis back, and the concatenation of unit slabs along the last axis. Each lemma below reads
  one of them at an index written `ix2 …` / `ix3 …`, as the operand at an index written the same way: the
  per-axis (for a shape cast, the row-major) obligation of the general lemma of the library is discharged once,
  for all extents. `pick4` names the `k`-th of four things, which is what a concatenation of four unit slabs
  reads at last coordinate `k`.
-/
import Idealize.ShloMosaic.Lib.ValueLayout

namespace Idealize.ShloMosaic.LastAxis

open Idealize.ShloMosaic Idealize.ShloMosaic.ValueIdx

variable {α : Type}

/-- The `k`-th of four. -/
abbrev pick4 {β : Type} (v0 v1 v2 v3 : β) (k : Fin 4) : β :=
  match k with | ⟨0, _⟩ => v0 | ⟨1, _⟩ => v1 | ⟨2, _⟩ => v2 | ⟨3, _⟩ => v3

/-- A rank-3 array cut along its LAST axis from `o` reads, at `(a, b, j)`, the source at `(a, b, k)` with
    `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`: the two indices have
    one row-major position. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array broadcast to `[a, b, 1]` along its own two axes (jnp's `x[..., None]`) reads, at
    `(i, j, u)`, the operand at `(i, j)`: on an operand axis of extent one the coordinate is `0` either way. -/
theorem broadcastInDim_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) :=
  broadcastInDim_apply _ h x _ _ (fun ax => by
    match ax with
    | ⟨0, _⟩ =>
      show i.val = if a = 1 then 0 else i.val
      split_ifs with h1
      · have := i.isLt; omega
      · rfl
    | ⟨1, _⟩ =>
      show j.val = if b = 1 then 0 else j.val
      split_ifs with h1
      · have := j.isLt; omega
      · rfl)

/-- COMPONENT `o` OF EVERY ROW — the unit slice of the last axis at `o` with its trailing unit axis dropped — reads, at
    `(i, j)`, the array at `(i, j, o)`. -/
theorem component_apply {a b n : ℕ} (o : ℕ) (x : (⟨3, ![a, b, n]⟩ : Shape).Idx → α)
    (hs : (⟨3, ![a, b, n]⟩ : Shape).Slices ![0, 0, o] ⟨3, ![a, b, 1]⟩)
    (hc : (⟨3, ![a, b, 1]⟩ : Shape).ShapeCasts ⟨2, ![a, b]⟩) (i : Fin a) (j : Fin b) (k : Fin n) (hk : k.val = o) :
    shapeCast ⟨2, ![a, b]⟩ (extractStridedSlice ⟨3, ![a, b, 1]⟩ ![0, 0, o] x hs) hc (ix2 i j) = x (ix3 i j k) :=
  (shapeCast_ab1_ab_apply _ hc i j).trans (slice3_axis2_apply o x hs i j (0 : Fin 1) k (by rw [hk]; rfl))

/-- Four `[a, b, 1]` slabs laid end to end along the last axis read, at `(i, j, k)`, slab `k` at `(i, j, 0)`:
    slab `k` spans exactly the last coordinate `k` (the `k` slabs before it have extent one each). -/
theorem concatenate4_unit_axis2_apply {a b : ℕ} (v0 v1 v2 v3 : (⟨3, ![a, b, 1]⟩ : Shape).Idx → α)
    (h : Shape.Concatenates (([⟨⟨3, ![a, b, 1]⟩, v0⟩, ⟨⟨3, ![a, b, 1]⟩, v1⟩, ⟨⟨3, ![a, b, 1]⟩, v2⟩, ⟨⟨3, ![a, b, 1]⟩, v3⟩] :
        List ((s : Shape) × (s.Idx → α))).map (·.1)) ⟨3, ![a, b, 4]⟩ 2)
    (i : Fin a) (j : Fin b) (k : Fin 4) :
    concatenate ⟨3, ![a, b, 4]⟩ 2 [⟨⟨3, ![a, b, 1]⟩, v0⟩, ⟨⟨3, ![a, b, 1]⟩, v1⟩, ⟨⟨3, ![a, b, 1]⟩, v2⟩, ⟨⟨3, ![a, b, 1]⟩, v3⟩] h (ix3 i j k)
      = pick4 v0 v1 v2 v3 k (ix3 i j (0 : Fin 1)) := by
  have hoff : ∀ (c : Fin 3), c ≠ 2 → ((ix3 i j (0 : Fin 1)) c).val = ((ix3 i j k) c).val := fun c hc => by
    match c with
    | ⟨0, _⟩ => rfl
    | ⟨1, _⟩ => rfl
    | ⟨2, _⟩ => exact absurd rfl hc
  match k with
  | ⟨0, h0⟩ =>
    exact concatenate_apply_piece (t := ⟨3, ![a, b, 4]⟩) 2 _ h (ix3 i j ⟨0, h0⟩) 0 (by show (0 : ℕ) < 4; omega) ⟨3, ![a, b, 1]⟩ v0 rfl rfl 0 rfl
      (ix3 i j (0 : Fin 1)) hoff rfl
  | ⟨1, h1⟩ =>
    exact concatenate_apply_piece (t := ⟨3, ![a, b, 4]⟩) 2 _ h (ix3 i j ⟨1, h1⟩) 1 (by show (1 : ℕ) < 4; omega) ⟨3, ![a, b, 1]⟩ v1 rfl rfl 1 rfl
      (ix3 i j (0 : Fin 1)) hoff rfl
  | ⟨2, h2⟩ =>
    exact concatenate_apply_piece (t := ⟨3, ![a, b, 4]⟩) 2 _ h (ix3 i j ⟨2, h2⟩) 2 (by show (2 : ℕ) < 4; omega) ⟨3, ![a, b, 1]⟩ v2 rfl rfl 2 rfl
      (ix3 i j (0 : Fin 1)) hoff rfl
  | ⟨3, h3⟩ =>
    exact concatenate_apply_piece (t := ⟨3, ![a, b, 4]⟩) 2 _ h (ix3 i j ⟨3, h3⟩) 3 (by show (3 : ℕ) < 4; omega) ⟨3, ![a, b, 1]⟩ v3 rfl rfl 3 rfl
      (ix3 i j (0 : Fin 1)) hoff rfl

end Idealize.ShloMosaic.LastAxis
-- ==== Proof.QuatSpec.lean ====
/-
  The Hamilton product of two quaternions, component by component, and the array of such products.

  A quaternion is held as its four components `(w, x, y, z)` along the last axis of an array. The product
  `p q` has

      w = w₁w₂ − x₁x₂ − y₁y₂ − z₁z₂          x = w₁x₂ + x₁w₂ + y₁z₂ − z₁y₂
      y = w₁y₂ − x₁z₂ + y₁w₂ + z₁x₂          z = w₁z₂ + x₁y₂ − y₁x₂ + z₁w₂,

  each a sum of four products taken from the left: `((t₁ ± t₂) ± t₃) ± t₄`. Over the extended reals the grouping is
  part of the value (an infinite term absorbs what is added to it, and `∞ − ∞` is a convention), so the
  specification fixes it; nothing here rearranges a sum, and no entry need be finite.
-/
import Idealize.ShloMosaic.Lib.ValueIdx
import proofs.«137463_j32401233281621_1_alg».proof.Proof.LibLastAxis

noncomputable section

namespace Cert.Quat

open Idealize.ShloMosaic Idealize.ShloMosaic.ValueIdx Idealize.ShloMosaic.LastAxis

/-- Component `k` of the Hamilton product of the quaternions with components `p` and `q`, each component summed
    from the left. -/
def ham (p q : Fin 4 → EReal) (k : Fin 4) : EReal :=
  pick4
    (p 0 * q 0 - p 1 * q 1 - p 2 * q 2 - p 3 * q 3)
    (p 0 * q 1 + p 1 * q 0 + p 2 * q 3 - p 3 * q 2)
    (p 0 * q 2 - p 1 * q 3 + p 2 * q 0 + p 3 * q 1)
    (p 0 * q 3 + p 1 * q 2 - p 2 * q 1 + p 3 * q 0) k

/-- The quaternion at row `(b, n)` of a `[B, N, 4]` array: its four components. -/
abbrev quatAt {B N : ℕ} (x : (⟨3, ![B, N, 4]⟩ : Shape).Idx → EReal) (b : Fin B) (n : Fin N) : Fin 4 → EReal :=
  fun c => x (ix3 b n c)

/-- The array of products: entry `(b, n, k)` is component `k` of the product of the two quaternions at row
    `(b, n)`. -/
def hamArr {B N : ℕ} (x y : (⟨3, ![B, N, 4]⟩ : Shape).Idx → EReal) : (⟨3, ![B, N, 4]⟩ : Shape).Idx → EReal :=
  fun i => ham (quatAt x (i 0) (i 1)) (quatAt y (i 0) (i 1)) (i 2)

theorem hamArr_apply {B N : ℕ} (x y : (⟨3, ![B, N, 4]⟩ : Shape).Idx → EReal) (b : Fin B) (n : Fin N) (k : Fin 4) :
    hamArr x y (ix3 b n k) = ham (quatAt x b n) (quatAt y b n) k := rfl

end Cert.Quat

end
-- ==== Proof.QuatBody.lean ====
/-
  What the kernel's body stores, entry by entry.

  The body loads its two blocks whole, takes each block's four components (the unit slices of the last axis, their
  unit axis dropped), forms the four sums of products of the Hamilton product on `[64, 200]` arrays, gives each a
  trailing unit axis again and lays the four side by side along the last axis. So entry `(b, n, k)` of what it
  stores is component `k` of the product of the two quaternions at row `(b, n)` of the blocks: the concatenation
  reads slab `k` at `(b, n, 0)`, the cast reads the sum at `(b, n)`, the arithmetic is entry by entry, and each
  component array at `(b, n)` is the block at `(b, n, o)`. The sums are grouped from the left as the specification
  groups them, so the two sides are the same expression: no law of arithmetic is used.
-/
import proofs.«137463_j32401233281621_1_alg».proof.Proof.Gen.KernelIdeal.Skeleton
import proofs.«137463_j32401233281621_1_alg».proof.Proof.QuatSpec
import Idealize.ShloMosaic.Lib.ValueIdx

noncomputable section

namespace Cert.KernelIdeal.QuatBody

open Cert.KernelIdeal Cert.KernelIdeal.Gen Idealize.ShloMosaic Idealize.ShloMosaic.ValueIdx Idealize.ShloMosaic.LastAxis Cert.Quat

/-- Entry `(b, n, k)` of the body's stored value is component `k` of the product of the quaternions at row
    `(b, n)` of the two loaded blocks. The four values of `k` go the same way: slab `k` is a cast of one sum of
    products of the eight component arrays, and each of those at `(b, n)` is a block entry. -/
theorem pay_apply (x0 x1 : Vec Ideal S64x200x4 .f32) (b : Fin 64) (n : Fin 200) (k : Fin 4) :
    k0_pay1 (F := Ideal) x0 x1 (ix3 b n k) = ham (quatAt x0 b n) (quatAt x1 b n) k := by
  unfold k0_pay1
  refine (concatenate4_unit_axis2_apply _ _ _ _ _ b n k).trans ?_
  fin_cases k <;>
  · refine (shapeCast_ab_ab1_apply _ _ b n 0).trans ?_
    simp only [subf_apply, addf_apply, mulf_apply]
    rw [component_apply 0 x0 _ _ b n (0 : Fin 4) rfl, component_apply 1 x0 _ _ b n (1 : Fin 4) rfl,
      component_apply 2 x0 _ _ b n (2 : Fin 4) rfl, component_apply 3 x0 _ _ b n (3 : Fin 4) rfl,
      component_apply 0 x1 _ _ b n (0 : Fin 4) rfl, component_apply 1 x1 _ _ b n (1 : Fin 4) rfl,
      component_apply 2 x1 _ _ b n (2 : Fin 4) rfl, component_apply 3 x1 _ _ b n (3 : Fin 4) rfl]
    rfl

/-- The body's stored value is the array of products of its two blocks, row by row. -/
theorem pay_eq (x0 x1 : Vec Ideal S64x200x4 .f32) :
    k0_pay1 (F := Ideal) x0 x1 = hamArr (B := 64) (N := 200) x0 x1 :=
  funext fun y => (congrArg (k0_pay1 (F := Ideal) x0 x1) (eq_ix3 y)).trans (pay_apply x0 x1 (y 0) (y 1) (y 2))

end Cert.KernelIdeal.QuatBody

end
-- ==== Proof.QuatValue.lean ====
/-
  The kernel's result array.

  The grid has 500 points. Point `t` is handed rows `200 t … 200 t + 199` (axis 1) of both arguments, whole along the
  other two axes, and writes back the same rows of the result: on every window the block index is `(0, t, 0)`. What
  the point writes is the array of products of its two blocks (`QuatBody.pay_eq`). A product at row `(b, n)` depends
  on the arguments at that row only, and row `(b, n)` of a block is row `(b, 200 t + n)` of its array; so what point
  `t` writes is block `t` of the array of products of the WHOLE arguments. The 500 bands of rows tile the result —
  row `r` lies in band `r / 200` —, so after the run the result is that array of products.
-/
import proofs.«137463_j32401233281621_1_alg».proof.Proof.Gen.KernelIdeal.Value
import proofs.«137463_j32401233281621_1_alg».proof.Proof.QuatBody
import Idealize.ShloMosaic.Lib.Pipeline.Value

noncomputable section

namespace Cert.KernelIdeal.QuatValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Quat

variable (m : (ℓ : Loc nD τ sig) → Buf (Elt Ideal) ℓ) (ρ : Dev nD → PrngReg)

theorem hz : (![0, 0, 0] : Fin 3 → Nat) = fun _ => 0 := funext fun a => by fin_cases a <;> rfl

/-- The three index maps, decided over the 500 points: every window's block index at point `t` is `(0, t, 0)`. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The array of products of the two arguments as the region finds them. -/
abbrev prodOf (c : Dev nD) : S64x100000x4.Idx → EReal :=
  hamArr (B := 64) (N := 100000) (V m c main_arg0) (V m c main_arg1)

/-- WHAT POINT `t` WRITES BACK is block `t` of the array of products of the whole arguments: the products of the
    point's blocks, each block row `(b, n)` being row `(b, 200 t + n)` of its array. -/
theorem flushed_eq (c : Dev nD) (t : Fin cfg0.N) :
    (dats m 0 c).flushed 2 t = ((cfg0.win 2).blk t).view.read (Elt Ideal) (prodOf m c) := by
  rw [flushed2]
  unfold out0_2
  rw [View.canon_unit_zero hz]
  simp only [View.ld_unit_zero (S := S64x200x4) hz]
  rw [QuatBody.pay_eq]
  obtain ⟨a0, a1, a2, b0, b1, b2, c0, c1, c2⟩ := idx_facts t
  have hN : t.val < 500 := Nat.lt_of_lt_of_eq t.isLt N_0
  funext j
  obtain ⟨b, n, k, rfl⟩ : ∃ (b : Fin 64) (n : Fin 200) (k : Fin 4), j = ix3 b n k := ⟨j 0, j 1, j 2, eq_ix3 j⟩
  have hrow : t.val * 200 + n.val < 100000 := by have := n.isLt; omega
  -- the block's entry sits in the array at the same batch and component, 200 t rows further down
  have e2 : ((cfg0.win 2).blk t).view.emb (ix3 b n k) = ix3 b (⟨t.val * 200 + n.val, hrow⟩ : Fin 100000) k := by
    funext a; apply Fin.ext
    match a with
    | ⟨0, _⟩ => show win0_2.index t (0 : Fin 3) * 64 + 1 * b.val = b.val; rw [c0]; omega
    | ⟨1, _⟩ => show win0_2.index t (1 : Fin 3) * 200 + 1 * n.val = t.val * 200 + n.val; rw [c1]; omega
    | ⟨2, _⟩ => show win0_2.index t (2 : Fin 3) * 4 + 1 * k.val = k.val; rw [c2]; omega
  -- and so does every component of the same row of each input block
  have q0 : quatAt (B := 64) (N := 200) (iblk m c 0 t) b n
      = quatAt (B := 64) (N := 100000) (V m c main_arg0) b ⟨t.val * 200 + n.val, hrow⟩ := by
    funext k'
    show V m c main_arg0 (((cfg0.win 0).blk t).view.emb (ix3 b n k')) = V m c main_arg0 (ix3 b (⟨t.val * 200 + n.val, hrow⟩ : Fin 100000) k')
    refine congrArg _ ?_
    funext a; apply Fin.ext
    match a with
    | ⟨0, _⟩ => show win0_0.index t (0 : Fin 3) * 64 + 1 * b.val = b.val; rw [a0]; omega
    | ⟨1, _⟩ => show win0_0.index t (1 : Fin 3) * 200 + 1 * n.val = t.val * 200 + n.val; rw [a1]; omega
    | ⟨2, _⟩ => show win0_0.index t (2 : Fin 3) * 4 + 1 * k'.val = k'.val; rw [a2]; omega
  have q1 : quatAt (B := 64) (N := 200) (iblk m c 1 t) b n
      = quatAt (B := 64) (N := 100000) (V m c main_arg1) b ⟨t.val * 200 + n.val, hrow⟩ := by
    funext k'
    show V m c main_arg1 (((cfg0.win 1).blk t).view.emb (ix3 b n k')) = V m c main_arg1 (ix3 b (⟨t.val * 200 + n.val, hrow⟩ : Fin 100000) k')
    refine congrArg _ ?_
    funext a; apply Fin.ext
    match a with
    | ⟨0, _⟩ => show win0_1.index t (0 : Fin 3) * 64 + 1 * b.val = b.val; rw [b0]; omega
    | ⟨1, _⟩ => show win0_1.index t (1 : Fin 3) * 200 + 1 * n.val = t.val * 200 + n.val; rw [b1]; omega
    | ⟨2, _⟩ => show win0_1.index t (2 : Fin 3) * 4 + 1 * k'.val = k'.val; rw [b2]; omega
  show hamArr (B := 64) (N := 200) (iblk m c 0 t) (iblk m c 1 t) (ix3 b n k)
    = prodOf m c (((cfg0.win 2).blk t).view.emb (ix3 b n k))
  rw [e2]
  show ham (quatAt (B := 64) (N := 200) (iblk m c 0 t) b n) (quatAt (B := 64) (N := 200) (iblk m c 1 t) b n) k
    = ham (quatAt (B := 64) (N := 100000) (V m c main_arg0) b ⟨t.val * 200 + n.val, hrow⟩)
        (quatAt (B := 64) (N := 100000) (V m c main_arg1) b ⟨t.val * 200 + n.val, hrow⟩) k
  rw [q0, q1]

/-- An index of the result is in point `t`'s block iff each coordinate is in the block's range on its axis. -/
theorem mem_blk (t : Fin cfg0.N) (i : S64x100000x4.Idx) :
    i ∈ ((cfg0.win 2).blk t).view.set ↔ ∀ a : Fin 3, win0_2.index t a * S64x200x4.size a ≤ (i a).val ∧ (i a).val < win0_2.index t a * S64x200x4.size a + S64x200x4.size a := by
  show i ∈ ((View.whole main_v0).slice (win0_2.rect t)).set ↔ _
  rw [View.set_slice_whole, Rect.mem_set_unit]
  exact Iff.rfl

/-- The bands tile the result: row `r` is in the block of point `r / 200`. -/
theorem cover (i : S64x100000x4.Idx) :
    ∃ t : Fin cfg0.N, (cfg0.win 2).flush t = true ∧ i ∈ ((cfg0.win 2).blk t).view.set := by
  have hi0 : (i 0).val < 64 := (i 0).isLt
  have hi1 : (i 1).val < 100000 := (i 1).isLt
  have hi2 : (i 2).val < 4 := (i 2).isLt
  have hN : cfg0.N = 500 := N_0
  have ht : (i 1).val / 200 < cfg0.N := by rw [hN]; omega
  obtain ⟨_, _, _, _, _, _, c0, c1, c2⟩ := idx_facts ⟨(i 1).val / 200, ht⟩
  refine ⟨⟨(i 1).val / 200, ht⟩, flush0_2 _, ?_⟩
  rw [mem_blk]
  intro a
  match a with
  | ⟨0, _⟩ =>
    show win0_2.index ⟨(i 1).val / 200, ht⟩ (0 : Fin 3) * 64 ≤ (i 0).val ∧ (i 0).val < win0_2.index ⟨(i 1).val / 200, ht⟩ (0 : Fin 3) * 64 + 64
    rw [c0]; omega
  | ⟨1, _⟩ =>
    show win0_2.index ⟨(i 1).val / 200, ht⟩ (1 : Fin 3) * 200 ≤ (i 1).val ∧ (i 1).val < win0_2.index ⟨(i 1).val / 200, ht⟩ (1 : Fin 3) * 200 + 200
    rw [c1]
    show (i 1).val / 200 * 200 ≤ (i 1).val ∧ (i 1).val < (i 1).val / 200 * 200 + 200
    omega
  | ⟨2, _⟩ =>
    show win0_2.index ⟨(i 1).val / 200, ht⟩ (2 : Fin 3) * 4 ≤ (i 2).val ∧ (i 2).val < win0_2.index ⟨(i 1).val / 200, ht⟩ (2 : Fin 3) * 4 + 4
    rw [c2]; omega

/-- THE RESULT after the run: the array of products of the two arguments. -/
theorem final (c : Dev nD) : (dats m 0 c).arrAt 2 cfg0.N = prodOf m c :=
  (dats m 0 c).arrAt_eq_of_cover 2 (prodOf m c) (fun t _ => flushed_eq m c t) cover

/-- The run, read: the result at the array of products of the arguments, the arguments unchanged. -/
theorem run : θ_run defs (onTc (τ := τ) (main (F := Ideal))) ⟨m, fun _ => 0, ρ⟩ fun r => ∀ c : Dev nD,
      r.2.mem ((c : Thread nD τ).loc main_v0)
        = hamArr (B := 64) (N := 100000) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.QuatValue

end
-- ==== Proof.QuatRef.lean ====
/-
  What the reference computes, entry by entry.

  The jnp reference takes the four components of each argument by `x[..., o]` (a unit slice of the last axis, then a
  reshape that drops the unit axis), forms the same four sums of products on `[64, 100000]` arrays, gives each a
  trailing unit axis (`broadcast_in_dim` along its own two axes) and concatenates the four along the last axis
  (`jnp.stack(…, axis=-1)`). Read at `(b, n, k)`: the concatenation is slab `k` at `(b, n, 0)`, the broadcast the sum
  at `(b, n)`, the arithmetic entry by entry, each component array at `(b, n)` the argument at `(b, n, o)`: component
  `k` of the product of the two quaternions at row `(b, n)`, summed from the left as the specification sums it.
-/
import proofs.«137463_j32401233281621_1_alg».proof.Proof.Gen.ReferenceIdeal.Read
import proofs.«137463_j32401233281621_1_alg».proof.Proof.QuatSpec
import Idealize.ShloMosaic.Lib.ValueIdx

noncomputable section

namespace Cert.ReferenceIdeal.QuatRef

open Cert.ReferenceIdeal Cert.ReferenceIdeal.Gen Cert.ReferenceIdeal.Read Idealize.ShloMosaic Idealize.ShloMosaic.ValueIdx Idealize.ShloMosaic.LastAxis Cert.Quat

/-- Entry `(b, n, k)` of the reference's result is component `k` of the product of the quaternions at row `(b, n)`
    of the two arguments. The stages are opened down to the arguments — the four broadcasts first, so that each
    slab shows as a broadcast of one sum; then, for every `k` alike, the twelve partial sums, the sixteen products
    and the eight components — and read at the index from the outside in. -/
theorem ref_apply (x0 x1 : (⟨S64x100000x4, .f32⟩ : BufTy).Contents (Elt Ideal)) (b : Fin 64) (n : Fin 100000) (k : Fin 4) :
    val_main_v48 (F := Ideal) x0 x1 (ix3 b n k) = ham (quatAt x0 b n) (quatAt x1 b n) k := by
  unfold val_main_v48
  refine (concatenate4_unit_axis2_apply _ _ _ _ _ b n k).trans ?_
  unfold val_main_v44 val_main_v45 val_main_v46 val_main_v47
  fin_cases k <;>
  · refine (broadcastInDim_ab_ab1_apply _ _ b n 0).trans ?_
    simp only [val_main_v43, val_main_v42, val_main_v41, val_main_v40, val_main_v39, val_main_v38, val_main_v37,
      val_main_v36, val_main_v35, val_main_v34, val_main_v33, val_main_v32, val_main_v31, val_main_v30,
      val_main_v29, val_main_v28, val_main_v27, val_main_v26, val_main_v25, val_main_v24, val_main_v23,
      val_main_v22, val_main_v21, val_main_v20, val_main_v19, val_main_v18, val_main_v17, val_main_v16,
      val_main_v15, val_main_v14, val_main_v13, val_main_v12, val_main_v11, val_main_v10, val_main_v9, val_main_v8,
      val_main_v7, val_main_v6, val_main_v5, val_main_v4, val_main_v3, val_main_v2, val_main_v1, val_main_v0,
      subf_apply, addf_apply, mulf_apply]
    rw [component_apply 0 x0 _ _ b n (0 : Fin 4) rfl, component_apply 1 x0 _ _ b n (1 : Fin 4) rfl,
      component_apply 2 x0 _ _ b n (2 : Fin 4) rfl, component_apply 3 x0 _ _ b n (3 : Fin 4) rfl,
      component_apply 0 x1 _ _ b n (0 : Fin 4) rfl, component_apply 1 x1 _ _ b n (1 : Fin 4) rfl,
      component_apply 2 x1 _ _ b n (2 : Fin 4) rfl, component_apply 3 x1 _ _ b n (3 : Fin 4) rfl]
    rfl

/-- The reference's result is the array of products of its two arguments, row by row. -/
theorem ref_eq (x0 x1 : (⟨S64x100000x4, .f32⟩ : BufTy).Contents (Elt Ideal)) :
    val_main_v48 (F := Ideal) x0 x1 = hamArr (B := 64) (N := 100000) x0 x1 :=
  funext fun i => (congrArg (val_main_v48 (F := Ideal) x0 x1) (eq_ix3 i)).trans (ref_apply x0 x1 (i 0) (i 1) (i 2))

end Cert.ReferenceIdeal.QuatRef

end
-- ==== Proof.lean ====
/-
  The quaternion product kernel against its jnp reference, over the extended reals.

  Both programs take two arrays of 64 × 100000 quaternions, components `(w, x, y, z)` along the last axis, and return
  the array of Hamilton products `q1 q2`. The kernel walks the 100000 rows in 500 bands of 200, each band whole along
  the batch and the component axes; the reference works on the whole arrays at once. In both, every component of a
  product is four products summed from the left in the same order, so at the ideal instance the two results are the
  same expression of the arguments entry by entry (`Cert.Quat.hamArr`): nothing is rearranged, and finiteness of the
  inputs is not used.

  The three frames: the kernel's two are the generated frame certificates; the reference has no kernel and its frame
  is its generated run with the result dropped. The idealization rewrote nothing, so `preserves` holds trivially.
  The value claim sets the kernel's run (`QuatValue.run`: the bands tile the result, each band the products of its
  rows) beside the reference's (`QuatRef.ref_eq`: its composed term is the same array of products).
-/
import proofs.«137463_j32401233281621_1_alg».proof.Defs
import proofs.«137463_j32401233281621_1_alg».proof.Proof.Gen.Kernel
import proofs.«137463_j32401233281621_1_alg».proof.Proof.Gen.Kernel.Skeleton
import proofs.«137463_j32401233281621_1_alg».proof.Proof.Gen.Kernel.Launch
import proofs.«137463_j32401233281621_1_alg».proof.Proof.Gen.Kernel.Points
import proofs.«137463_j32401233281621_1_alg».proof.Proof.Gen.Kernel.Frame
import proofs.«137463_j32401233281621_1_alg».proof.Proof.Gen.KernelIdeal
import proofs.«137463_j32401233281621_1_alg».proof.Proof.Gen.KernelIdeal.Skeleton
import proofs.«137463_j32401233281621_1_alg».proof.Proof.Gen.KernelIdeal.Launch
import proofs.«137463_j32401233281621_1_alg».proof.Proof.Gen.KernelIdeal.Points
import proofs.«137463_j32401233281621_1_alg».proof.Proof.Gen.KernelIdeal.Frame
import proofs.«137463_j32401233281621_1_alg».proof.Proof.Gen.ReferenceIdeal
import proofs.«137463_j32401233281621_1_alg».proof.Proof.Gen.Pre_finite_inputs
import proofs.«137463_j32401233281621_1_alg».proof.Proof.Gen.KernelIdeal.Value
import proofs.«137463_j32401233281621_1_alg».proof.Proof.Gen.ReferenceIdeal.Run
import proofs.«137463_j32401233281621_1_alg».proof.Proof.Gen.ReferenceIdeal.Read
import proofs.«137463_j32401233281621_1_alg».proof.Proof.QuatValue
import proofs.«137463_j32401233281621_1_alg».proof.Proof.QuatRef
import Idealize.ShloMosaic.Adequacy
import Idealize.ShloMosaic.Init

noncomputable section

namespace Cert.Proof

open Idealize.ShloMosaic Idealize.ShloMosaic.TcCoe Idealize.SL.Sem Cert.Quat

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both results are the array of Hamilton products of the arguments: the kernel's band by band, the reference's as
    its composed term; the arguments agree, so the two arrays are one. -/
theorem algebraic : Cert.algebraic_KernelIdeal_ReferenceIdeal := by
  intro m ρ m' ρ' _ hagree
  refine ⟨fun c => hamArr (B := 64) (N := 100000)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.QuatValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.QuatRef.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
